-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1024, .f32⟩
  | .local _ .vmem, ⟨5, _⟩ => ⟨S1024, .f32⟩
  | .local _ .vmem, ⟨6, _⟩ => ⟨S4x512x1024, .f32⟩
  | .local _ .vmem, ⟨7, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  broadcasts_S4x512x1_S4x512x1024 : S4x512x1.Broadcasts S4x512x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x8192x1024.size a
  hwx0_0 : ∀ i : grid0.Coords, EltTy.bits .f32 = 32 ∨ (Rect.block (s := S4x8192x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x8192x1024.size a
  hwx0_4 : ∀ i : grid0.Coords, EltTy.bits .f32 = 32 ∨ (Rect.block (s := S4x8192x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x1024, .f32⟩
  | .hbm, ⟨24, _⟩ => ⟨S8192x1024, .i1⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  bcast_S1x8192x1024_S4x8192x1024_0_1_2 : S1x8192x1024.BroadcastsInDim S4x8192x1024 (![0, 1, 2] : Fin 3 → Fin S4x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.Consts.lean ====
/- The float literals of the two programs as the extended reals their patterns denote: the kernel's
   reciprocal of the row length, the reference's row length, the shared variance offset, and zero. -/
import Idealize.ShloMosaic.PureOps.Ideal

noncomputable section

namespace Cert.LNConsts

open Idealize.ShloMosaic

/-- `+0.0` denotes `0`. -/
theorem ofBits_zero : Ideal.ofBits .f32 0x00000000#32 = 0 := by
  simp [Ideal.ofBits, Ideal.ieee]

/-- `9.765625e-4` is exactly `2⁻¹⁰ = 1/1024`. -/
theorem ofBits_inv1024 : Ideal.ofBits .f32 0x3A800000#32 = ((1 / 1024 : ℝ) : EReal) := by
  simp [Ideal.ofBits, Ideal.ieee, -EReal.coe_mul]; norm_num

/-- `1024.0` denotes the real `1024`. -/
theorem ofBits_1024 : Ideal.ofBits .f32 0x44800000#32 = ((1024 : ℝ) : EReal) := by
  simp [Ideal.ofBits, Ideal.ieee, -EReal.coe_mul]; norm_num

/-- The variance offset `≈ 1e-5`: the dyadic `10995116 · 2⁻⁴⁰`. -/
def epsR : ℝ := 10995116 / 2 ^ 40

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]; norm_num

end Cert.LNConsts

end
-- ==== Proof.Spec.lean ====
/- Layer normalisation of one row, in the two arrangements the programs compute, and the whole-array
   functions built from them.

   For a row `h : Fin 1024 → EReal` with gain `g` and shift `β`:
   * the one-pass form takes the two moments `S₁ = ∑ h`, `S₂ = ∑ h²`, the mean `μ = S₁·c` with `c = 2⁻¹⁰`, the
     variance `S₂·c − μ²`, and returns `(h d − μ) · rsqrt (var + ε) · g d + β d`;
   * the two-pass form takes `μ = S₁ / 1024`, the variance `(∑ (h − μ)²) / 1024`, and returns
     `(h d − μ) / sqrt (var + ε) · g d + β d`.
   On a row of finite entries the two agree: `c = 1/1024` exactly, the mean of squared deviations is the mean of
   squares minus the squared mean, that variance is non-negative so `var + ε > 0`, and there `rsqrt` is the
   reciprocal of `sqrt`. -/
import Idealize.ShloMosaic.PureOps.Ideal
import Idealize.ShloMosaic.Lib.ValueIdx
import proofs.«153988_g48069273977172_cont_8to1c4_857_8_alg».proof.Proof.Consts

noncomputable section

namespace Cert.LN

open Idealize.ShloMosaic Idealize.ShloMosaic.ValueIdx

/-- The one-pass arrangement (moments, then `rsqrt`). -/
def rowK (h g β : Fin 1024 → EReal) (d : Fin 1024) : EReal :=
  ((h d - (∑ k, h k) * Ideal.ofBits .f32 0x3A800000#32)
      * Ideal.rsqrt (((∑ k, h k * h k) * Ideal.ofBits .f32 0x3A800000#32
          - ((∑ k, h k) * Ideal.ofBits .f32 0x3A800000#32) * ((∑ k, h k) * Ideal.ofBits .f32 0x3A800000#32))
        + Ideal.ofBits .f32 0x3727C5AC#32))
    * g d + β d

/-- The two-pass arrangement (mean, deviations, then a quotient by `sqrt`). -/
def rowR (h g β : Fin 1024 → EReal) (d : Fin 1024) : EReal :=
  Ideal.div (h d - Ideal.div (∑ k, h k) (Ideal.ofBits .f32 0x44800000#32))
      (Ideal.sqrt (Ideal.div (∑ k, (h k - Ideal.div (∑ k, h k) (Ideal.ofBits .f32 0x44800000#32))
            * (h k - Ideal.div (∑ k, h k) (Ideal.ofBits .f32 0x44800000#32))) (Ideal.ofBits .f32 0x44800000#32)
        + Ideal.ofBits .f32 0x3727C5AC#32))
    * g d + β d

/-- Row `(b, s)` of `x + pos`: the positional row `s` added to every batch entry. -/
def hrow (x : FVec Ideal ⟨3, ![4, 8192, 1024]⟩ .f32) (pos : FVec Ideal ⟨2, ![8192, 1024]⟩ .f32)
    (b : Fin 4) (s : Fin 8192) : Fin 1024 → EReal :=
  fun k => x (ix3 b s k) + pos (ix2 s k)

/-- The whole result in the one-pass arrangement. -/
def Gk (x : FVec Ideal ⟨3, ![4, 8192, 1024]⟩ .f32) (pos : FVec Ideal ⟨2, ![8192, 1024]⟩ .f32)
    (g β : FVec Ideal ⟨1, ![1024]⟩ .f32) : FVec Ideal ⟨3, ![4, 8192, 1024]⟩ .f32 :=
  fun i => rowK (hrow x pos (i 0) (i 1)) (fun k => g (ix1 k)) (fun k => β (ix1 k)) (i 2)

/-- The whole result in the two-pass arrangement. -/
def Gr (x : FVec Ideal ⟨3, ![4, 8192, 1024]⟩ .f32) (pos : FVec Ideal ⟨2, ![8192, 1024]⟩ .f32)
    (g β : FVec Ideal ⟨1, ![1024]⟩ .f32) : FVec Ideal ⟨3, ![4, 8192, 1024]⟩ .f32 :=
  fun i => rowR (hrow x pos (i 0) (i 1)) (fun k => g (ix1 k)) (fun k => β (ix1 k)) (i 2)

theorem Gk_ix3 (x pos g β) (b : Fin 4) (s : Fin 8192) (d : Fin 1024) :
    Gk x pos g β (ix3 b s d) = rowK (hrow x pos b s) (fun k => g (ix1 k)) (fun k => β (ix1 k)) d := rfl

theorem Gr_ix3 (x pos g β) (b : Fin 4) (s : Fin 8192) (d : Fin 1024) :
    Gr x pos g β (ix3 b s d) = rowR (hrow x pos b s) (fun k => g (ix1 k)) (fun k => β (ix1 k)) d := rfl

/-- A finite sum of reals, coerced, is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The mean of the squared deviations from the mean is the mean of the squares minus the squared mean (rows of length
    1024, the mean taken as the sum times `1/1024`). -/
theorem var_identity (f : Fin 1024 → ℝ) :
    (∑ k, (f k - (∑ k, f k) * (1 / 1024)) * (f k - (∑ k, f k) * (1 / 1024))) * (1 / 1024)
      = (∑ k, f k * f k) * (1 / 1024) - ((∑ k, f k) * (1 / 1024)) * ((∑ k, f k) * (1 / 1024)) := by
  have hk : ∀ k, (f k - (∑ k, f k) * (1 / 1024)) * (f k - (∑ k, f k) * (1 / 1024))
      = f k * f k - 2 * ((∑ k, f k) * (1 / 1024)) * f k + ((∑ k, f k) * (1 / 1024)) * ((∑ k, f k) * (1 / 1024)) :=
    fun k => by ring
  rw [Finset.sum_congr rfl fun k _ => hk k, Finset.sum_add_distrib, Finset.sum_sub_distrib, ← Finset.mul_sum,
    Finset.sum_const, Finset.card_univ, Fintype.card_fin, nsmul_eq_mul]
  push_cast
  ring

/-- On a row of finite entries the two arrangements agree. -/
theorem rowK_eq_rowR (h g β : Fin 1024 → EReal) (hfin : ∀ k, ∃ r : ℝ, h k = (r : EReal)) (d : Fin 1024) :
    rowK h g β d = rowR h g β d := by
  choose f hf using hfin
  obtain rfl : h = fun k => ((f k : ℝ) : EReal) := funext hf
  -- the two moments and the sum of squared deviations, as reals
  have hS1 : (∑ k, ((f k : ℝ) : EReal)) = ((∑ k, f k : ℝ) : EReal) := (coe_sum _ _).symm
  have hS2 : (∑ k, ((f k : ℝ) : EReal) * ((f k : ℝ) : EReal)) = ((∑ k, f k * f k : ℝ) : EReal) := by
    rw [coe_sum]; exact Finset.sum_congr rfl fun k _ => (EReal.coe_mul _ _).symm
  have hD : ∀ μ : ℝ, (∑ k, (((f k : ℝ) : EReal) - (μ : EReal)) * (((f k : ℝ) : EReal) - (μ : EReal)))
      = ((∑ k, (f k - μ) * (f k - μ) : ℝ) : EReal) := fun μ => by
    rw [coe_sum]; exact Finset.sum_congr rfl fun k _ => by rw [EReal.coe_mul, EReal.coe_sub]
  -- the variance is non-negative, so the offset makes it positive
  have hvar : 0 ≤ (∑ k, (f k - (∑ k, f k) * (1 / 1024)) * (f k - (∑ k, f k) * (1 / 1024))) * (1 / 1024 : ℝ) :=
    mul_nonneg (Finset.sum_nonneg fun k _ => mul_self_nonneg _) (by norm_num)
  have hv : 0 < (∑ k, f k * f k) * (1 / 1024 : ℝ) - ((∑ k, f k) * (1 / 1024)) * ((∑ k, f k) * (1 / 1024))
      + Cert.LNConsts.epsR := by
    rw [← var_identity]; exact add_pos_of_nonneg_of_pos hvar Cert.LNConsts.epsR_pos
  have hsq : 0 < Real.sqrt ((∑ k, f k * f k) * (1 / 1024 : ℝ) - ((∑ k, f k) * (1 / 1024)) * ((∑ k, f k) * (1 / 1024))
      + Cert.LNConsts.epsR) := Real.sqrt_pos.mpr hv
  unfold rowK rowR
  rw [Cert.LNConsts.ofBits_inv1024, Cert.LNConsts.ofBits_1024, Cert.LNConsts.ofBits_eps, hS1, hS2,
    Ideal.div_coe (by norm_num : (1024 : ℝ) ≠ 0), ← EReal.coe_mul, hD, Ideal.div_coe (by norm_num : (1024 : ℝ) ≠ 0)]
  simp only [← EReal.coe_mul, ← EReal.coe_sub, ← EReal.coe_add]
  rw [var_identity, Ideal.rsqrt_coe, if_neg (not_lt.mpr hv.le), if_neg hv.ne', Ideal.sqrt_coe, if_neg (not_lt.mpr hv.le),
    Ideal.div_coe hsq.ne']
  simp only [one_div]

/-- With every entry of `x` and of `pos` finite the two whole results are one array. -/
theorem Gk_eq_Gr (x : FVec Ideal ⟨3, ![4, 8192, 1024]⟩ .f32) (pos : FVec Ideal ⟨2, ![8192, 1024]⟩ .f32)
    (g β : FVec Ideal ⟨1, ![1024]⟩ .f32)
    (hx : ∀ i, ∃ r : ℝ, x i = (r : EReal)) (hp : ∀ i, ∃ r : ℝ, pos i = (r : EReal)) :
    Gk x pos g β = Gr x pos g β := by
  funext i
  refine rowK_eq_rowR _ _ _ (fun k => ?_) _
  obtain ⟨a, ha⟩ := hx (ix3 (i 0) (i 1) k)
  obtain ⟨b, hb⟩ := hp (ix2 (i 1) k)
  exact ⟨a + b, by unfold hrow; rw [ha, hb, EReal.coe_add]⟩

end Cert.LN

end
-- ==== Proof.Finite.lean ====
/- From the precondition to finiteness: where the predicate "every input is below +∞ in absolute value" is all ones,
   every entry of the first two argument arrays is a real number. -/
import proofs.«153988_g48069273977172_cont_8to1c4_857_8_alg».proof.Pre_finite_inputs
import Idealize.ShloMosaic.PureOps.Ideal
import Idealize.ShloMosaic.Lib.ReduceAll
import Idealize.ShloMosaic.Lib.ValueIdx

noncomputable section

namespace Cert.LN.Finite

open Idealize.ShloMosaic Cert.Pre_finite_inputs

/-- The rank-0 shape has exactly one index. -/
instance : Subsingleton S_.Idx := ⟨fun a b => funext fun d => d.elim0⟩

/-- The single-precision pattern 0x7F800000 (sign 0, exponent all ones, significand 0) denotes +∞. -/
theorem inf_bits : Ideal.ofBits .f32 0x7F800000#32 = (⊤ : EReal) := by
  simp [Ideal.ofBits, Ideal.ieee]

/-- An extended real whose absolute value max a (-a) lies strictly below +∞ is a real: at a = -∞ the maximum is
    -(-∞) = +∞, at a = +∞ it is +∞ itself, and neither is below +∞. -/
theorem real_of_abs_lt_top (a : EReal) (h : max a (-a) < ⊤) : ∃ r : ℝ, a = (r : EReal) := by
  induction a using EReal.rec with
  | bot => simp at h
  | coe r => exact ⟨r, rfl⟩
  | top => simp at h

/-- If the ordered comparison |a| < (the value of 0x7F800000) answers 1, then a is a real. -/
theorem real_of_lt_inf (a : EReal)
    (h : Ideal.cmp .olt (max a (-a)) (Ideal.ofBits .f32 0x7F800000#32) = 1#1) : ∃ r : ℝ, a = (r : EReal) := by
  rw [inf_bits] at h
  refine real_of_abs_lt_top a ?_
  by_contra hn
  simp [Ideal.cmp, hn] at h

/-- The same at an index of an array: where the elementwise comparison of |a| against an array that reads +∞'s
    pattern at i answers 1 at i, the entry a i is a real. -/
theorem real_of_cmp {s : Shape} (a c : FVec Ideal s .f32) (i : s.Idx)
    (hc : c i = Ideal.ofBits .f32 0x7F800000#32)
    (h : cmpf .olt (Host.absf a) c i = 1#1) : ∃ r : ℝ, a i = (r : EReal) := by
  rw [ValueIdx.cmpf_apply, hc] at h
  exact real_of_lt_inf (a i) h

/-- If the precondition's predicate evaluates to all ones on the four arrays, every entry of the first (the activations)
    and of the second (the positional table) is a real number. -/
theorem of_pre [hP : Cert.Pre_finite_inputs.Facts]
    (x : FVec Ideal S4x8192x1024 .f32) (pos : FVec Ideal S8192x1024 .f32) (g β : FVec Ideal S1024 .f32)
    (h : Cert.Pre_finite_inputs.fn (F := Ideal) x pos g β = fun _ => 1#1) :
    (∀ i, ∃ r : ℝ, x i = (r : EReal)) ∧ (∀ i, ∃ r : ℝ, pos i = (r : EReal)) := by
  -- The predicate's one entry is the conjunction of four "all" reductions; read it at its only index.
  have h0 := congrFun h ValueIdx.ix0
  unfold Cert.Pre_finite_inputs.fn Cert.Pre_finite_inputs.fn_part1 at h0
  dsimp only at h0
  -- A conjunction of bits is 1 only if each is: keep the first two conjuncts, drop the third and the fourth.
  obtain ⟨h123, -⟩ := IntOp.andi_eq_one.1 h0
  obtain ⟨h12, -⟩ := IntOp.andi_eq_one.1 h123
  obtain ⟨h1, h2⟩ := IntOp.andi_eq_one.1 h12
  -- A reduction by "and" over all axes that is 1 had a 1 at every index; there the comparison |entry| < +∞ holds.
  exact ⟨fun i => real_of_cmp x _ i rfl (Host.reduce_andi_all _ _ _ _ _ h1 i),
    fun i => real_of_cmp pos _ i rfl (Host.reduce_andi_all _ _ _ _ _ h2 i)⟩

end Cert.LN.Finite

end
-- ==== Proof.RefTerm.lean ====
/- The reference's result as one pure term of its four argument arrays: the positional rows gathered by the identity
   index vector (its negative-index wrap and its range mask included, as the program spells them), added to every batch
   entry, then the two-pass normalisation over the last axis, the gain and the shift. -/
import proofs.«153988_g48069273977172_cont_8to1c4_857_8_alg».proof.ReferenceIdeal

noncomputable section

namespace Cert.ReferenceIdeal.RefTerm

open Idealize.ShloMosaic Cert.ReferenceIdeal
open Facts₀ Facts

variable {F : FTy → Type} [FloatOps F] [Facts]

/-- The index vector `0, 1, …, 8191` with a negative entry wrapped by `+ 8192` (no entry is negative). -/
def wrapIdx : IVec S8192 32 :=
  let i0 : IVec S8192 32 := iotaInDim S8192 32 0
  select (cmpi .slt i0 (broadcastInDim S8192 ![] bcast_S_S8192 (constantI S_ 32 0#32)))
    (addi i0 (broadcastInDim S8192 ![] bcast_S_S8192 (constantI S_ 32 8192#32))) i0

/-- The index vector as a column. -/
def idxCol : IVec S8192x1 32 := broadcastInDim S8192x1 ![0] bcast_S8192_S8192x1_0 wrapIdx

/-- Row by row, whether the index is in `[0, 8191]`. -/
def inRange : IVec S8192 1 :=
  Host.reduce IntOp.andi
    (andi (cmpi .sge idxCol (broadcastInDim S8192x1 ![] bcast_S_S8192x1 (constantI S_ 32 0#32)))
      (cmpi .sle idxCol (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The gathered positional rows, a row out of range replaced by the fill value. -/
def posRows (pos : FVec F S8192x1024 .f32) : FVec F S8192x1024 .f32 :=
  select (broadcastInDim S8192x1024 ![0] bcast_S8192_S8192x1024_0 inRange)
    (Host.gather gather_S8192x1024_S8192x1_S8192x1024_1_0_n_n_0_1_11024 pos idxCol)
    (broadcastInDim S8192x1024 ![] bcast_S_S8192x1024 (constant S_ .f32 0x7FC00000#32))

/-- `x + pos` with the positional rows broadcast over the batch. -/
def hsum (x : FVec F S4x8192x1024 .f32) (pos : FVec F S8192x1024 .f32) : FVec F S4x8192x1024 .f32 :=
  addf x (broadcastInDim S4x8192x1024 ![0, 1, 2] bcast_S1x8192x1024_S4x8192x1024_0_1_2
    (broadcastInDim S1x8192x1024 ![1, 2] bcast_S8192x1024_S1x8192x1024_1_2 (posRows pos)))

/-- The mean over the last axis, kept as a unit axis. -/
def meanCol (h : FVec F S4x8192x1024 .f32) : FVec F S4x8192x1 .f32 :=
  Host.divf
    (broadcastInDim S4x8192x1 ![0, 1] bcast_S4x8192_S4x8192x1_0_1
      (Host.reduceAdd h (constant S_ .f32 0x00000000#32) reducesTo_S4x8192x1024_S4x8192_d2 h_S_))
    (broadcastInDim S4x8192x1 ![] bcast_S_S4x8192x1 (constant S_ .f32 0x44800000#32))

/-- The deviations from the row mean. -/
def devs (h : FVec F S4x8192x1024 .f32) : FVec F S4x8192x1024 .f32 :=
  subf h (broadcastInDim S4x8192x1024 ![0, 1, 2] bcast_S4x8192x1_S4x8192x1024_0_1_2 (meanCol h))

/-- The standard deviation column: the square root of the mean squared deviation plus the offset. -/
def sdCol (h : FVec F S4x8192x1024 .f32) : FVec F S4x8192x1 .f32 :=
  Host.sqrt (addf (meanCol (mulf (devs h) (devs h)))
    (broadcastInDim S4x8192x1 ![] bcast_S_S4x8192x1 (constant S_ .f32 0x3727C5AC#32)))

/-- The reference's result. -/
def refTerm (x : FVec F S4x8192x1024 .f32) (pos : FVec F S8192x1024 .f32) (g β : FVec F S1024 .f32) :
    FVec F S4x8192x1024 .f32 :=
  addf
    (mulf
      (Host.divf (devs (hsum x pos))
        (broadcastInDim S4x8192x1024 ![0, 1, 2] bcast_S4x8192x1_S4x8192x1024_0_1_2 (sdCol (hsum x pos))))
      (broadcastInDim S4x8192x1024 ![0, 1, 2] bcast_S1x1x1024_S4x8192x1024_0_1_2
        (broadcastInDim S1x1x1024 ![2] bcast_S1024_S1x1x1024_2 g)))
    (broadcastInDim S4x8192x1024 ![0, 1, 2] bcast_S1x1x1024_S4x8192x1024_0_1_2
      (broadcastInDim S1x1x1024 ![2] bcast_S1024_S1x1x1024_2 β))

end Cert.ReferenceIdeal.RefTerm

end
-- ==== Proof.RefRun.lean ====
/- The reference program is a straight line of host operations (the two outlined functions inlined at their calls); its
   run ends with the result buffer at the operations' composed term of the arguments. -/
import proofs.«153988_g48069273977172_cont_8to1c4_857_8_alg».proof.ReferenceIdeal
import proofs.«153988_g48069273977172_cont_8to1c4_857_8_alg».proof.Proof.Gen.ReferenceIdeal
import proofs.«153988_g48069273977172_cont_8to1c4_857_8_alg».proof.Proof.RefTerm
import Idealize.ShloMosaic.Lib.StableHlo.Run

noncomputable section

namespace Cert.ReferenceIdeal.RefRun

open Idealize.ShloMosaic Idealize.ShloMosaic.TcCoe Idealize.SL.Sem Cert.ReferenceIdeal

variable {F : FTy → Type} [FloatOps F]

section Line

open Idealize.ShloMosaic.StableHlo Facts₀ Facts

/-- The reference's fifty-six operations in the printed order, the calls unfolded: the index vector `0 … 8191`; the
    row gather's twenty-three over its call's buffers (the comparison with zero, the wrapped index `i + 8192` and the
    selection between the two, which is the inner call's one operation; the index as a column; the two range tests, their
    conjunction and its reduction along the unit axis; the gather; the mask and the fill value broadcast; the selection);
    then the sum with the batch entries, the mean, the deviations, the mean squared deviation, the square root of it plus
    the offset, the quotient, the gain and the shift. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2),
    unary main_v2 main_v3 (broadcastInDim S4x8192x1024 ![0, 1, 2] bcast_S1x8192x1024_S4x8192x1024_0_1_2),
    binary main_arg0 main_v3 main_v4 addf,
    nullary main_cst (constant S_ .f32 0x00000000#32),
    binary main_v4 main_cst main_v5 (fun x v => Host.reduceAdd x v reducesTo_S4x8192x1024_S4x8192_d2 h_S_),
    unary main_v5 main_v6 (broadcastInDim S4x8192x1 ![0, 1] bcast_S4x8192_S4x8192x1_0_1),
    nullary main_cst_0 (constant S_ .f32 0x44800000#32),
    unary main_cst_0 main_v7 (broadcastInDim S4x8192x1 ![] bcast_S_S4x8192x1),
    binary main_v6 main_v7 main_v8 Host.divf,
    unary main_v8 main_v9 (broadcastInDim S4x8192x1024 ![0, 1, 2] bcast_S4x8192x1_S4x8192x1024_0_1_2),
    binary main_v4 main_v9 main_v10 subf,
    binary main_v10 main_v10 main_v11 mulf,
    nullary main_cst_1 (constant S_ .f32 0x00000000#32),
    binary main_v11 main_cst_1 main_v12 (fun x v => Host.reduceAdd x v reducesTo_S4x8192x1024_S4x8192_d2 h_S_),
    unary main_v12 main_v13 (broadcastInDim S4x8192x1 ![0, 1] bcast_S4x8192_S4x8192x1_0_1),
    nullary main_cst_2 (constant S_ .f32 0x44800000#32),
    unary main_cst_2 main_v14 (broadcastInDim S4x8192x1 ![] bcast_S_S4x8192x1),
    binary main_v13 main_v14 main_v15 Host.divf,
    unary main_v8 main_v16 (broadcastInDim S4x8192x1024 ![0, 1, 2] bcast_S4x8192x1_S4x8192x1024_0_1_2),
    binary main_v4 main_v16 main_v17 subf,
    nullary main_cst_3 (constant S_ .f32 0x3727C5AC#32),
    unary main_cst_3 main_v18 (broadcastInDim S4x8192x1 ![] bcast_S_S4x8192x1),
    binary main_v15 main_v18 main_v19 addf,
    unary main_v19 main_v20 Host.sqrt,
    unary main_v20 main_v21 (broadcastInDim S4x8192x1024 ![0, 1, 2] bcast_S4x8192x1_S4x8192x1024_0_1_2),
    binary main_v17 main_v21 main_v22 Host.divf,
    unary main_arg2 main_v23 (broadcastInDim S1x1x1024 ![2] bcast_S1024_S1x1x1024_2),
    unary main_v23 main_v24 (broadcastInDim S4x8192x1024 ![0, 1, 2] bcast_S1x1x1024_S4x8192x1024_0_1_2),
    binary main_v22 main_v24 main_v25 mulf,
    unary main_arg3 main_v26 (broadcastInDim S1x1x1024 ![2] bcast_S1024_S1x1x1024_2),
    unary main_v26 main_v27 (broadcastInDim S4x8192x1024 ![0, 1, 2] bcast_S1x1x1024_S4x8192x1024_0_1_2),
    binary main_v25 main_v27 main_v28 addf ]

-- fifty-six binds re-associated: the rewrite under the chain recurses once per statement
set_option maxRecDepth 2048 in
/-- The program is that straight line: the two functions' definitions unfolded at their calls and the records at their
    fields, both sides are one chain of steps once sequencing is re-associated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every weakly fair execution terminates, each buffer at the fold of the operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather in
set_option maxRecDepth 8192 in
set_option maxHeartbeats 1600000 in
/-- The fold read at the result buffer is the composed term: each operation's result at its own buffer is its function's
    value and at any other buffer what was there; the typed references' transports are the identity at these literal
    references; the two reductions and the gather stay folded (the equation never looks inside them). -/
theorem out_eq (V : Valuation τ sig (Elt F)) :
    after ops V (main_v28 : DevRef τ sig)
      = RefTerm.refTerm (F := F) (V (main_arg0 : DevRef τ sig)) (V (main_arg1 : DevRef τ sig)) (V (main_arg2 : DevRef τ sig))
          (V (main_arg3 : DevRef τ sig)) := by
  after_results_simp
  rfl

/-- No operation writes an argument's buffer. -/
theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

end Line

/-- Every weakly fair execution of the reference terminates, the result buffer at the composed term of the argument
    arrays and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v28)
          = RefTerm.refTerm (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v28).trans (out_eq (StableHlo.launchContents m c)),
        (h c main_arg0).trans (arg0_eq (StableHlo.launchContents m c)),
        (h c main_arg1).trans (arg1_eq (StableHlo.launchContents m c)),
        (h c main_arg2).trans (arg2_eq (StableHlo.launchContents m c)),
        (h c main_arg3).trans (arg3_eq (StableHlo.launchContents m c))⟩)
    (run_main m ρ)

end Cert.ReferenceIdeal.RefRun

end
-- ==== Proof.LibGatherRows.lean ====
/-
  ROW GATHERS READ AT AN INDEX. A table of rows indexed along its first axis by a column of integer positions —
  `table[idx]`, a take along axis 0 — is a gather whose first operand axis is collapsed and start-indexed, whose
  remaining operand axes are the result's offset axes, whose start indices are an [E × 1] array with the index vector on
  axis 1, and which has no batching axes. Result row `e` is the table's row at position `idx[e, 0]`, read as a SIGNED
  integer and CLAMPED into [0, N − 1]: a negative position reads row 0, one past the end reads the last row. Stated for a
  table of rank 2 (rows of `C` entries) and of rank 3 (rows of `H × D` entries), for any dimension-numbers record
  whose fields are the ones above; and, for a position known to be in range, with the clamp gone.
-/
import Idealize.ShloMosaic.PureOps
import Idealize.ShloMosaic.Lib.ValueIdx

namespace Cert.Att.Lib

open Idealize.ShloMosaic Idealize.ShloMosaic.ValueIdx

/-- THE ROW GATHER, RANK 2. For an [N × C] table, an [E × 1] array of start indices and an [E × C] result, with the
    dimension numbers of a take along axis 0 (`hoff` … `hivd`: offset axis 1, collapsed axis 0, no operand batching axes,
    start index map [0], index vector on axis 1 — each closed by `rfl` at a literal record; the slice sizes and the
    start-indices batching axes are not needed, the record's own well-formedness gives what is used of them): the result
    at (e, c) is the table at (r, c), where r is the start index `idx[e, 0]` read signed and clamped into [0, N − 1]. -/
theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  -- the collapsed axis has slice size 1, so the clamp is to N − 1
  have hsl : d.sliceSizes 0 = 1 := d.slice_collapsed 0 (by rw [hcoll]; exact List.mem_singleton.mpr rfl)
  -- with the record's fields substituted, every list of axes below is a literal and computes
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    -- the start index is read at (e, 0): the result's batch axis 0 gives the row, the index vector has one component
    refine congrArg (fun z => min (idx z).toInt.toNat (N - 1)) ?_
    funext b
    refine Fin.ext ?_
    match b with
    | ⟨0, _⟩ => rfl
    | ⟨1, _⟩ => rfl
  | ⟨1, _⟩ =>
    -- axis 1: not start-indexed (start 0), not batching; its offset coordinate is the result's coordinate on axis 1
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- THE ROW GATHER, RANK 2, AT A POSITION IN RANGE. When the start index `idx[e, 0]`, read signed, is the row number `n`
    of the table, the clamp does nothing: the result at (e, c) is the table at (n, c). -/
theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

/-- THE ROW GATHER, RANK 3. For an [N × H × D] table, an [E × 1] array of start indices and an [E × H × D] result, with
    the dimension numbers of a take along axis 0 (`hoff` … `hivd`: offset axes 1 and 2, collapsed axis 0, no operand
    batching axes, start index map [0], index vector on axis 1 — each closed by `rfl` at a literal record): the result at
    (e, h, j) is the table at (r, h, j), where r is the start index `idx[e, 0]` read signed and clamped into [0, N − 1]. -/
theorem gather_rows3 {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1) (hN : 0 < N)
    (x : (⟨3, ![N, H, D]⟩ : Shape).Idx → α) (idx : IVec ⟨2, ![E, 1]⟩ w) (e : Fin E) (h : Fin H) (j : Fin D) :
    Host.gather d x idx (ix3 e h j) = x (ix3 ⟨min (idx (ix2 e 0)).toInt.toNat (N - 1), by omega⟩ h j) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix3 e h j) idx 0 + GatherDims.batchCoord _ (ix3 e h j) 0 + GatherDims.offCoord _ (ix3 e h j) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    refine congrArg (fun z => min (idx z).toInt.toNat (N - 1)) ?_
    funext b
    refine Fin.ext ?_
    match b with
    | ⟨0, _⟩ => rfl
    | ⟨1, _⟩ => rfl
  | ⟨1, _⟩ =>
    -- axis 1: start 0, no batching; its offset coordinate is the result's coordinate on axis 1
    show GatherDims.start _ (ix3 e h j) idx 1 + GatherDims.batchCoord _ (ix3 e h j) 1 + GatherDims.offCoord _ (ix3 e h j) 1 = h.val
    rw [GatherDims.batchCoord_eq_zero _ _ _ List.not_mem_nil]
    unfold GatherDims.start
    rw [dif_neg (show (1 : Fin 3) ∉ ([0] : List (Fin 3)) by decide)]
    simp only [Nat.add_zero, Nat.zero_add]
    rfl
  | ⟨2, _⟩ =>
    -- axis 2: start 0, no batching; its offset coordinate is the result's coordinate on axis 2
    show GatherDims.start _ (ix3 e h j) idx 2 + GatherDims.batchCoord _ (ix3 e h j) 2 + GatherDims.offCoord _ (ix3 e h j) 2 = j.val
    rw [GatherDims.batchCoord_eq_zero _ _ _ List.not_mem_nil]
    unfold GatherDims.start
    rw [dif_neg (show (2 : Fin 3) ∉ ([0] : List (Fin 3)) by decide)]
    simp only [Nat.add_zero, Nat.zero_add]
    rfl

/-- THE ROW GATHER, RANK 3, AT A POSITION IN RANGE. When the start index `idx[e, 0]`, read signed, is the row number `n`
    of the table, the clamp does nothing: the result at (e, h, j) is the table at (n, h, j). -/
theorem gather_rows3_of_eq {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1)
    (x : (⟨3, ![N, H, D]⟩ : Shape).Idx → α) (idx : IVec ⟨2, ![E, 1]⟩ w) (e : Fin E) (h : Fin H) (j : Fin D)
    (n : Fin N) (hn : (idx (ix2 e 0)).toInt = (n.val : Int)) :
    Host.gather d x idx (ix3 e h j) = x (ix3 n h j) := by
  have hN : 0 < N := Nat.lt_of_le_of_lt (Nat.zero_le _) n.isLt
  rw [gather_rows3 d hoff hcoll hob hsim hivd hN x idx e h j]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.LibReduceAnd.lean ====
/-
  A host reduction by `and` over entries that are all 1.

  A one-operand `stablehlo.reduce` of an array of one-bit words by `and`, started from 1, is 1 at every result index
  when every entry of the array is 1 (jnp's `all` of a mask that holds everywhere): the fold meets only ones. Any
  shapes, any reduced axes.
-/
import Idealize.ShloMosaic.PureOps.Reduce

namespace Cert.ReduceAnd

open Idealize.ShloMosaic

/-- A left fold by `and` from 1 over a list whose entries are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ (fun n hn => hl n (List.mem_cons_of_mem _ hn))
    show IntOp.andi init (f a) = 1#1
    rw [h, hl a List.mem_cons_self]
    rfl

/-- The reduction by `and` from an initial 1 of an array whose every entry is 1, at any result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_ones x _ _ hinit (fun i _ => hx i)

end Cert.ReduceAnd
-- ==== Proof.RefRead.lean ====
/- The reference's composed term read at an index: the gather by the identity index vector returns the table's own rows
   (no index is negative, every index is in range, so neither the wrap nor the fill value is ever selected), and the rest is
   the two-pass normalisation of row `(b, s)` of `x + pos`. -/
import proofs.«153988_g48069273977172_cont_8to1c4_857_8_alg».proof.ReferenceIdeal
import proofs.«153988_g48069273977172_cont_8to1c4_857_8_alg».proof.Proof.Gen.ReferenceIdeal
import proofs.«153988_g48069273977172_cont_8to1c4_857_8_alg».proof.Proof.RefTerm
import proofs.«153988_g48069273977172_cont_8to1c4_857_8_alg».proof.Proof.Spec
import proofs.«153988_g48069273977172_cont_8to1c4_857_8_alg».proof.Proof.LibGatherRows
import proofs.«153988_g48069273977172_cont_8to1c4_857_8_alg».proof.Proof.LibReduceAnd
import Idealize.ShloMosaic.Lib.ValueIdx
import Idealize.ShloMosaic.Lib.IdealHost
import Idealize.ShloMosaic.Lib.StableHlo.Predicate
import Idealize.ShloMosaic.PureOps.Ideal.Laws

noncomputable section

namespace Cert.ReferenceIdeal.RefRead

open Idealize.ShloMosaic Idealize.ShloMosaic.ValueIdx Cert.ReferenceIdeal
open Facts₀ Facts

/-! ## The broadcasts of the program read at an index

Each reads its operand, whatever it is, at the coordinates it keeps. -/

section Broadcasts
variable {α : Type}

/-- A vector as an `[8192, 1]` column reads, at `(s, q)`, the vector at `s`. -/
theorem bcast_col_apply (v : S8192.Idx → α) (s : Fin 8192) (q : Fin 1) :
    broadcastInDim S8192x1 ![0] bcast_S8192_S8192x1_0 v (ix2 s q) = v (ix1 s) := by
  unfold broadcastInDim
  refine congrArg v (funext fun a => Fin.ext ?_)
  match a with
  | ⟨0, _⟩ => rfl

/-- A vector laid along the rows of an `[8192, 1024]` rectangle reads, at `(s, d)`, the vector at `s`. -/
theorem bcast_rows_apply (v : S8192.Idx → α) (s : Fin 8192) (d : Fin 1024) :
    broadcastInDim S8192x1024 ![0] bcast_S8192_S8192x1024_0 v (ix2 s d) = v (ix1 s) := by
  unfold broadcastInDim
  refine congrArg v (funext fun a => Fin.ext ?_)
  match a with
  | ⟨0, _⟩ => rfl

/-- An `[8192, 1024]` rectangle repeated over the batch reads, at `(b, s, k)`, the rectangle at `(s, k)`. -/
theorem bcast_batch_apply (v : S8192x1024.Idx → α) (b : Fin 4) (s : Fin 8192) (k : Fin 1024) :
    broadcastInDim S4x8192x1024 ![0, 1, 2] bcast_S1x8192x1024_S4x8192x1024_0_1_2
      (broadcastInDim S1x8192x1024 ![1, 2] bcast_S8192x1024_S1x8192x1024_1_2 v) (ix3 b s k) = v (ix2 s k) := by
  unfold broadcastInDim
  refine congrArg v (funext fun a => Fin.ext ?_)
  match a with
  | ⟨0, _⟩ => rfl
  | ⟨1, _⟩ => rfl

/-- A `[4, 8192]` rectangle with a unit last axis added reads, at `(b, s, q)`, the rectangle at `(b, s)`. -/
theorem bcast_keep_apply (v : S4x8192.Idx → α) (b : Fin 4) (s : Fin 8192) (q : Fin 1) :
    broadcastInDim S4x8192x1 ![0, 1] bcast_S4x8192_S4x8192x1_0_1 v (ix3 b s q) = v (ix2 b s) := by
  unfold broadcastInDim
  refine congrArg v (funext fun a => Fin.ext ?_)
  match a with
  | ⟨0, _⟩ => rfl
  | ⟨1, _⟩ => rfl

/-- A `[4, 8192, 1]` column repeated along the last axis reads, at `(b, s, k)`, the column at `(b, s, 0)`. -/
theorem bcast_last_apply (v : S4x8192x1.Idx → α) (b : Fin 4) (s : Fin 8192) (k : Fin 1024) :
    broadcastInDim S4x8192x1024 ![0, 1, 2] bcast_S4x8192x1_S4x8192x1024_0_1_2 v (ix3 b s k) = v (ix3 b s 0) := by
  unfold broadcastInDim
  refine congrArg v (funext fun a => Fin.ext ?_)
  match a with
  | ⟨0, _⟩ => rfl
  | ⟨1, _⟩ => rfl
  | ⟨2, _⟩ => rfl

/-- A vector of the last axis repeated over batch and rows reads, at `(b, s, d)`, the vector at `d`. -/
theorem bcast_vec_apply (v : S1024.Idx → α) (b : Fin 4) (s : Fin 8192) (d : Fin 1024) :
    broadcastInDim S4x8192x1024 ![0, 1, 2] bcast_S1x1x1024_S4x8192x1024_0_1_2
      (broadcastInDim S1x1x1024 ![2] bcast_S1024_S1x1x1024_2 v) (ix3 b s d) = v (ix1 d) := by
  unfold broadcastInDim
  refine congrArg v (funext fun a => Fin.ext ?_)
  match a with
  | ⟨0, _⟩ => rfl

end Broadcasts

/-- The host's square root at an index is the extended reals' square root of the element. -/
theorem hostSqrt_apply {s : Shape} {φ : FTy} (a : FVec Ideal s φ) (i : s.Idx) :
    Host.sqrt (F := Ideal) a i = Ideal.sqrt (a i) := rfl

/-! ## The gathered rows are the table's own -/

/-- The wrapped index vector at row `s` is the word of `s`: the row number is not negative, so the wrap is not taken. -/
theorem wrapIdx_apply (s : Fin 8192) : RefTerm.wrapIdx (ix1 s) = BitVec.ofNat 32 s.val := by
  have hs := s.isLt
  have hlt : ¬ IntOp.cmpi .slt (BitVec.ofNat 32 s.val) (0#32) = 1#1 := by
    rw [StableHlo.Predicate.slt_iff_toNat (by rw [BitVec.toNat_ofNat]; omega) (by decide)]
    exact Nat.not_lt_zero _
  show Scalar.select (IntOp.cmpi .slt (BitVec.ofNat 32 s.val) (0#32)) _ (BitVec.ofNat 32 s.val) = _
  rw [eq_zero_of_ne_one hlt, select_zero]

/-- The index column at `(s, q)` is the word of `s`. -/
theorem idxCol_apply (s : Fin 8192) (q : Fin 1) : RefTerm.idxCol (ix2 s q) = BitVec.ofNat 32 s.val := by
  unfold RefTerm.idxCol
  rw [bcast_col_apply RefTerm.wrapIdx s q, wrapIdx_apply]

/-- Every row is in range: both comparisons of the row's word, with `0` and with `8191`, hold, and the conjunction
    over the unit axis of a column of ones is one. -/
theorem inRange_apply (s : Fin 8192) : RefTerm.inRange (ix1 s) = 1#1 := by
  unfold RefTerm.inRange
  refine Cert.ReduceAnd.reduce_andi_ones _ _ _ _ _ rfl (fun i => ?_)
  obtain ⟨p, q, rfl⟩ : ∃ (p : Fin 8192) (q : Fin 1), i = ix2 p q := ⟨i 0, i 1, eq_ix2 i⟩
  show IntOp.andi (IntOp.cmpi .sge (RefTerm.idxCol (ix2 p q)) (0#32))
      (IntOp.cmpi .sle (RefTerm.idxCol (ix2 p q)) (8191#32)) = 1#1
  rw [idxCol_apply p q]
  have hp := p.isLt
  have hw : (BitVec.ofNat 32 p.val).toNat = p.val := by rw [BitVec.toNat_ofNat]; omega
  have h0 : (0#32 : BitVec 32).toNat = 0 := rfl
  have h1 : (8191#32 : BitVec 32).toNat = 8191 := rfl
  have hge : IntOp.cmpi .sge (BitVec.ofNat 32 p.val) (0#32) = 1#1 :=
    (StableHlo.Predicate.sge_iff_toNat (by omega) (by omega)).mpr (by omega)
  have hle : IntOp.cmpi .sle (BitVec.ofNat 32 p.val) (8191#32) = 1#1 :=
    (StableHlo.Predicate.sle_iff_toNat (by omega) (by omega)).mpr (by omega)
  rw [hge, hle]
  rfl

/-- The gathered positional rows are the table's own rows: the mask is one, and the row gathered at `s` is row `s`. -/
theorem posRows_apply (pos : FVec Ideal S8192x1024 .f32) (s : Fin 8192) (d : Fin 1024) :
    RefTerm.posRows pos (ix2 s d) = pos (ix2 s d) := by
  have hs := s.isLt
  unfold RefTerm.posRows
  rw [select_apply, bcast_rows_apply RefTerm.inRange s d, inRange_apply, select_one]
  exact Cert.Att.Lib.gather_rows2_of_eq _ rfl rfl rfl rfl rfl pos RefTerm.idxCol s d s
    (by rw [idxCol_apply s]; exact StableHlo.Predicate.toInt_ofNat_small s.val (by omega))

/-- `x + pos` at `(b, s, k)`. -/
theorem hsum_apply (x : FVec Ideal S4x8192x1024 .f32) (pos : FVec Ideal S8192x1024 .f32)
    (b : Fin 4) (s : Fin 8192) (k : Fin 1024) :
    RefTerm.hsum x pos (ix3 b s k) = x (ix3 b s k) + pos (ix2 s k) := by
  unfold RefTerm.hsum
  rw [addf_apply, bcast_batch_apply (RefTerm.posRows pos) b s k, posRows_apply]

/-! ## The row statistics -/

/-- The host sum over the last axis from zero, at row `(b, s)`, is the sum of the row's entries. -/
theorem rowSum_apply (h : FVec Ideal S4x8192x1024 .f32) (b : Fin 4) (s : Fin 8192) :
    Host.reduceAdd (F := Ideal) h (constant (F := Ideal) S_ .f32 0x00000000#32) reducesTo_S4x8192x1024_S4x8192_d2 h_S_ (ix2 b s)
      = ∑ k : Fin 1024, h (ix3 b s k) := by
  have hR : S4x8192x1024.Reduces [2] S4x8192 := by decide
  rw [hostReduceAdd_apply, Ideal.hostReduceAdd_single reducesTo_S4x8192x1024_S4x8192_d2 hR, constant_apply,
    Ideal.ofBits_zero_f32, zero_add]
  refine Finset.sum_congr rfl (fun k _ => congrArg h (funext fun a => Fin.ext ?_))
  match a with
  | ⟨0, _⟩ => rfl
  | ⟨1, _⟩ => rfl
  | ⟨2, _⟩ => rfl

/-- The mean column at row `(b, s)`: the row's sum divided by the row length. -/
theorem meanCol_apply (h : FVec Ideal S4x8192x1024 .f32) (b : Fin 4) (s : Fin 8192) (q : Fin 1) :
    RefTerm.meanCol h (ix3 b s q)
      = Ideal.div (∑ k : Fin 1024, h (ix3 b s k)) (Ideal.ofBits .f32 0x44800000#32) := by
  unfold RefTerm.meanCol
  rw [hostDivf_apply, bcast_keep_apply _ b s q, rowSum_apply, broadcastInDim_scalar_apply, constant_apply]

/-- The deviation from the row mean at `(b, s, k)`. -/
theorem devs_apply (h : FVec Ideal S4x8192x1024 .f32) (b : Fin 4) (s : Fin 8192) (k : Fin 1024) :
    RefTerm.devs h (ix3 b s k)
      = h (ix3 b s k) - Ideal.div (∑ j : Fin 1024, h (ix3 b s j)) (Ideal.ofBits .f32 0x44800000#32) := by
  unfold RefTerm.devs
  rw [subf_apply, bcast_last_apply (RefTerm.meanCol h) b s k, meanCol_apply]

/-- The standard deviation column at row `(b, s)`: the square root of the mean squared deviation plus the offset. -/
theorem sdCol_apply (h : FVec Ideal S4x8192x1024 .f32) (b : Fin 4) (s : Fin 8192) (q : Fin 1) :
    RefTerm.sdCol h (ix3 b s q)
      = Ideal.sqrt (Ideal.div (∑ k : Fin 1024,
            (h (ix3 b s k) - Ideal.div (∑ j : Fin 1024, h (ix3 b s j)) (Ideal.ofBits .f32 0x44800000#32))
              * (h (ix3 b s k) - Ideal.div (∑ j : Fin 1024, h (ix3 b s j)) (Ideal.ofBits .f32 0x44800000#32)))
          (Ideal.ofBits .f32 0x44800000#32) + Ideal.ofBits .f32 0x3727C5AC#32) := by
  have hsq : (∑ k : Fin 1024, mulf (RefTerm.devs h) (RefTerm.devs h) (ix3 b s k))
      = ∑ k : Fin 1024,
          (h (ix3 b s k) - Ideal.div (∑ j : Fin 1024, h (ix3 b s j)) (Ideal.ofBits .f32 0x44800000#32))
            * (h (ix3 b s k) - Ideal.div (∑ j : Fin 1024, h (ix3 b s j)) (Ideal.ofBits .f32 0x44800000#32)) :=
    Finset.sum_congr rfl (fun k _ => by rw [mulf_apply, devs_apply])
  unfold RefTerm.sdCol
  rw [hostSqrt_apply, addf_apply, meanCol_apply, hsq, broadcastInDim_scalar_apply, constant_apply]

/-! ## The whole term -/

/-- At `Ideal` the reference's term is the two-pass normalisation `Cert.LN.Gr` of the same arrays. -/
theorem refTerm_eq (x : FVec Ideal S4x8192x1024 .f32) (pos : FVec Ideal S8192x1024 .f32) (g β : FVec Ideal S1024 .f32) :
    RefTerm.refTerm (F := Ideal) x pos g β = Cert.LN.Gr x pos g β := by
  funext i
  obtain ⟨b, s, d, rfl⟩ : ∃ (b : Fin 4) (s : Fin 8192) (d : Fin 1024), i = ix3 b s d := ⟨i 0, i 1, i 2, eq_ix3 i⟩
  rw [Cert.LN.Gr_ix3]
  have hH : ∀ k, RefTerm.hsum x pos (ix3 b s k) = Cert.LN.hrow x pos b s k := fun k => hsum_apply x pos b s k
  unfold RefTerm.refTerm Cert.LN.rowR
  rw [addf_apply, mulf_apply, hostDivf_apply, devs_apply, bcast_last_apply (RefTerm.sdCol (RefTerm.hsum x pos)) b s d,
    sdCol_apply, bcast_vec_apply g b s d, bcast_vec_apply β b s d]
  simp only [hH]
  all_goals rfl

end Cert.ReferenceIdeal.RefRead

end
-- ==== Proof.RefValue.lean ====
/- The reference's run and its result as the two-pass layer normalisation of `x + pos`. -/
import proofs.«153988_g48069273977172_cont_8to1c4_857_8_alg».proof.ReferenceIdeal
import proofs.«153988_g48069273977172_cont_8to1c4_857_8_alg».proof.Proof.Gen.ReferenceIdeal
import proofs.«153988_g48069273977172_cont_8to1c4_857_8_alg».proof.Proof.Spec
import proofs.«153988_g48069273977172_cont_8to1c4_857_8_alg».proof.Proof.RefRun
import proofs.«153988_g48069273977172_cont_8to1c4_857_8_alg».proof.Proof.RefRead
import Idealize.ShloMosaic.Lib.StableHlo.Run

noncomputable section

namespace Cert.ReferenceIdeal.RefValue

open Idealize.ShloMosaic Idealize.ShloMosaic.TcCoe Idealize.SL.Sem Cert.ReferenceIdeal

/-- Every weakly fair execution of the reference terminates with its result array at the two-pass normalisation of the
    argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28)
          = Cert.LN.Gr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c).1.trans (RefRead.refTerm_eq _ _ _ _), (h c).2⟩)
    (RefRun.run (F := Ideal) m ρ)

end Cert.ReferenceIdeal.RefValue

end
-- ==== Proof.KernelBlock.lean ====
/- One block of the kernel, index by index. The body adds the positional block `[512, 1024]` to each of the four batch
   slices of the activation block `[4, 512, 1024]`, sums each row and each row of squares over the last axis, and writes
   the one-pass normalisation of the row; so entry `(b, r, d)` of the block it leaves is `rowK` of row `(b, r)` of the sum,
   with the gain and shift vectors, at `d`. -/
import proofs.«153988_g48069273977172_cont_8to1c4_857_8_alg».proof.Proof.Gen.KernelIdeal.Value
import proofs.«153988_g48069273977172_cont_8to1c4_857_8_alg».proof.Proof.Spec
import Idealize.ShloMosaic.PureOps.Ideal.Laws
import Idealize.ShloMosaic.Lib.ValueIdx
import Idealize.ShloMosaic.Lib.Pipeline.Value

noncomputable section

namespace Cert.KernelIdeal.KBlock

open Idealize.ShloMosaic Idealize.ShloMosaic.ValueIdx Cert.KernelIdeal Cert.KernelIdeal.Gen Cert.KernelIdeal.Value

/-- The sum of the activation block and the positional block broadcast over the batch, at `(b, r, k)`. -/
theorem hblock_apply (P0 : FVec Ideal S4x512x1024 .f32) (P1 : FVec Ideal S512x1024 .f32) (b : Fin 4) (r : Fin 512) (k : Fin 1024) :
    (addf (F := Ideal) P0 (broadcastTo S4x512x1024 (shapeCast S1x512x1024 P1 shapeCasts_S512x1024_S1x512x1024)
        broadcasts_S1x512x1024_S4x512x1024)) (ix3 b r k)
      = P0 (ix3 b r k) + P1 (ix2 r k) := by
  show P0 (ix3 b r k) + (broadcastTo S4x512x1024 (shapeCast S1x512x1024 P1 shapeCasts_S512x1024_S1x512x1024)
        broadcasts_S1x512x1024_S4x512x1024) (ix3 b r k) = _
  congr 1
  refine (broadcastTo_apply _ _ (ix3 b r k) (ix3 (0 : Fin 1) r k) (fun a => match a with
    | ⟨0, _⟩ => by show 0 = (if (1 : Nat) = 1 then 0 else b.val); rw [if_pos rfl]
    | ⟨1, _⟩ => by show r.val = (if (512 : Nat) = 1 then 0 else r.val); rw [if_neg (by decide)]
    | ⟨2, _⟩ => by show k.val = (if (1024 : Nat) = 1 then 0 else k.val); rw [if_neg (by decide)])).trans ?_
  exact shapeCast_apply _ _ (ix3 (0 : Fin 1) r k) (ix2 r k) (by
    rw [Shape.rowMajor_val_two, Shape.rowMajor_val_three]
    show r.val * 1024 + k.val = (0 * 512 + r.val) * 1024 + k.val; omega)

/-- A lane sum of a `[4, 512, 1024]` block over its last axis, at row `(b, r)`, is the sum over `k` of the block at
    `(b, r, k)`. -/
theorem rowsum (src : FVec Ideal S4x512x1024 .f32) (h : S4x512x1024.Reduces [2] S4x512) (hφ : FKind.Formats .f32)
    (hacc : (0x00000000#32 : BitVec (FTy.f32).bits) = FKind.add.neutral .f32 hφ) (b : Fin 4) (r : Fin 512) :
    multiReduction .add [2] S4x512 src 0x00000000#32 h hφ hacc (ix2 b r) = ∑ k : Fin 1024, src (ix3 b r k) := by
  refine (Ideal.multiReduction_add_single src _ h hφ hacc (ix2 b r)).trans ?_
  refine Finset.sum_congr rfl fun k _ => congrArg src ?_
  funext a; apply Fin.ext
  match a with
  | ⟨0, _⟩ => rfl
  | ⟨1, _⟩ => rfl
  | ⟨2, _⟩ => rfl

theorem ix4_0_ix3 (b : Fin 4) (r : Fin 512) (d : Fin 1024) : ix4_0 (ix3 b r d) = ix3 b r d := by
  funext a; apply Fin.ext; match a with | ⟨0, _⟩ => rfl | ⟨1, _⟩ => rfl | ⟨2, _⟩ => rfl
theorem ix4_1_ix3 (b : Fin 4) (r : Fin 512) (d : Fin 1024) : ix4_1 (ix3 b r d) = ix2 r d := by
  funext a; apply Fin.ext; match a with | ⟨0, _⟩ => rfl | ⟨1, _⟩ => rfl
theorem ix4_2_ix3 (b : Fin 4) (r : Fin 512) (d : Fin 1024) : ix4_2 (ix3 b r d) = ix2 b r := by
  funext a; apply Fin.ext; match a with | ⟨0, _⟩ => rfl | ⟨1, _⟩ => rfl
theorem ix4_3_ix3 (b : Fin 4) (r : Fin 512) (d : Fin 1024) : ix4_3 (ix3 b r d) = ix2 b r := by
  funext a; apply Fin.ext; match a with | ⟨0, _⟩ => rfl | ⟨1, _⟩ => rfl
theorem ix4_4_ix3 (b : Fin 4) (r : Fin 512) (d : Fin 1024) : ix4_4 (ix3 b r d) = ix2 b r := by
  funext a; apply Fin.ext; match a with | ⟨0, _⟩ => rfl | ⟨1, _⟩ => rfl
theorem ix4_5_ix3 (b : Fin 4) (r : Fin 512) (d : Fin 1024) : ix4_5 (ix3 b r d) = ix2 b r := by
  funext a; apply Fin.ext; match a with | ⟨0, _⟩ => rfl | ⟨1, _⟩ => rfl
theorem ix4_6_ix3 (b : Fin 4) (r : Fin 512) (d : Fin 1024) : ix4_6 (ix3 b r d) = ix1 d := by
  funext a; apply Fin.ext; match a with | ⟨0, _⟩ => rfl
theorem ix4_7_ix3 (b : Fin 4) (r : Fin 512) (d : Fin 1024) : ix4_7 (ix3 b r d) = ix1 d := by
  funext a; apply Fin.ext; match a with | ⟨0, _⟩ => rfl

/-- Entry `(b, r, d)` of the block the body leaves is the one-pass normalisation of row `(b, r)` of the summed block. -/
theorem block_eq (P0 : FVec Ideal S4x512x1024 .f32) (P1 : FVec Ideal S512x1024 .f32) (P2 P3 : FVec Ideal S1024 .f32)
    (b : Fin 4) (r : Fin 512) (d : Fin 1024) :
    E4 (F := Ideal) P0 P1 P2 P3 (ix3 b r d)
      = Cert.LN.rowK (fun k => P0 (ix3 b r k) + P1 (ix2 r k)) (fun k => P2 (ix1 k)) (fun k => P3 (ix1 k)) d := by
  have hS1 : multiReduction .add [2] S4x512 (addf (F := Ideal) P0 (broadcastTo S4x512x1024 (shapeCast S1x512x1024 P1 shapeCasts_S512x1024_S1x512x1024) broadcasts_S1x512x1024_S4x512x1024)) 0x00000000#32 reduces_S4x512x1024_S4x512 (.inl rfl) rfl (ix2 b r)
      = ∑ k : Fin 1024, (P0 (ix3 b r k) + P1 (ix2 r k)) :=
    (rowsum _ _ _ _ b r).trans (Finset.sum_congr rfl fun k _ => hblock_apply P0 P1 b r k)
  have hS2 : multiReduction .add [2] S4x512 (mulf (F := Ideal) (addf (F := Ideal) P0 (broadcastTo S4x512x1024 (shapeCast S1x512x1024 P1 shapeCasts_S512x1024_S1x512x1024) broadcasts_S1x512x1024_S4x512x1024)) (addf (F := Ideal) P0 (broadcastTo S4x512x1024 (shapeCast S1x512x1024 P1 shapeCasts_S512x1024_S1x512x1024) broadcasts_S1x512x1024_S4x512x1024))) 0x00000000#32 reduces_S4x512x1024_S4x512 (.inl rfl) rfl (ix2 b r)
      = ∑ k : Fin 1024, (P0 (ix3 b r k) + P1 (ix2 r k)) * (P0 (ix3 b r k) + P1 (ix2 r k)) :=
    (rowsum _ _ _ _ b r).trans (Finset.sum_congr rfl fun k _ => by
      show (addf (F := Ideal) P0 _) (ix3 b r k) * (addf (F := Ideal) P0 _) (ix3 b r k) = _
      rw [hblock_apply])
  dsimp only [E4]
  rw [ix4_0_ix3, ix4_1_ix3, ix4_2_ix3, ix4_3_ix3, ix4_4_ix3, ix4_5_ix3, ix4_6_ix3, ix4_7_ix3, hS1, hS2]
  rfl

end Cert.KernelIdeal.KBlock

end
-- ==== Proof.KernelValue.lean ====
/- The kernel's run and its result as the one-pass layer normalisation of `x + pos`.
   Grid point `t` stages rows `[512·q, 512·q + 512)` of every batch entry of `x`, the same rows of `pos`, and the whole gain
   and shift vectors (`q` the point's block index on the position axis), and writes the same rows of the result; the
   block it writes is, entry by entry, the normalisation of the corresponding row of `x + pos` (the block lemma), and
   the sixteen blocks tile the result array, so the array ends at `Gk` of the arguments. -/
import proofs.«153988_g48069273977172_cont_8to1c4_857_8_alg».proof.Proof.Gen.KernelIdeal.Value
import proofs.«153988_g48069273977172_cont_8to1c4_857_8_alg».proof.Proof.Spec
import proofs.«153988_g48069273977172_cont_8to1c4_857_8_alg».proof.Proof.KernelBlock

noncomputable section

namespace Cert.KernelIdeal.KValue

open Idealize.ShloMosaic Idealize.ShloMosaic.TcCoe Idealize.SL.Sem Cert.KernelIdeal Cert.KernelIdeal.Gen
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- `rowK` depends on its three rows only through their values. -/
theorem rowK_congr {h h' g g' β β' : Fin 1024 → EReal} (hh : ∀ k, h k = h' k) (hg : ∀ k, g k = g' k)
    (hβ : ∀ k, β k = β' k) (d : Fin 1024) : Cert.LN.rowK h g β d = Cert.LN.rowK h' g' β' d := by
  rw [funext hh, funext hg, funext hβ]

/-- The index maps, decided over the sixteen grid points: the activation and positional windows move with the result
    window along the position axis and stay at block 0 elsewhere; the two vectors stay whole. -/
theorem idx_facts : ∀ t : Fin cfg0.N,
    win0_0.index t (0 : Fin 3) = 0 ∧ win0_0.index t (1 : Fin 3) = win0_4.index t (1 : Fin 3) ∧ win0_0.index t (2 : Fin 3) = 0
    ∧ win0_1.index t (0 : Fin 2) = win0_4.index t (1 : Fin 3) ∧ win0_1.index t (1 : Fin 2) = 0
    ∧ win0_2.index t (0 : Fin 1) = 0 ∧ win0_3.index t (0 : Fin 1) = 0
    ∧ win0_4.index t (0 : Fin 3) = 0 ∧ win0_4.index t (2 : Fin 3) = 0 ∧ win0_4.index t (1 : Fin 3) ≤ 15 :=
  (by decide +kernel : ∀ t : Fin grid0.N, _)

/-- Every one of the sixteen row blocks is some point's. -/
theorem idx_onto : ∀ q : Fin 16, ∃ t : Fin cfg0.N, win0_4.index t = ![0, q.val, 0] :=
  (by decide +kernel : ∀ q : Fin 16, ∃ t : Fin grid0.N, win0_4.index t = ![0, q.val, 0])

/-- What point `t` writes back is block `t` of `Gk` of the argument arrays as the region finds them. -/
theorem flushed_eq (c : Dev nD) (t : Fin cfg0.N) :
    (dats m 0 c).flushed 4 t = ((cfg0.win 4).blk t).view.read (Elt Ideal)
      (Cert.LN.Gk (V m c main_arg0) (V m c main_arg1) (V m c main_arg2) (V m c main_arg3)) := by
  rw [Value.flushed4]
  obtain ⟨e00, e01, e02, e10, e11, e20, e30, e40, e42, e41⟩ := idx_facts t
  refine funext fun (j : S4x512x1024.Idx) => ?_
  obtain ⟨b, r, d, rfl⟩ : ∃ (b : Fin 4) (r : Fin 512) (d : Fin 1024), j = ix3 b r d := ⟨j 0, j 1, j 2, eq_ix3 j⟩
  have hs : win0_4.index t (1 : Fin 3) * 512 + r.val < 8192 := by have := r.isLt; omega
  -- the array indices under the block indices
  have hemb4 : ((cfg0.win 4).blk t).view.emb (ix3 b r d) = ix3 b (⟨win0_4.index t (1 : Fin 3) * 512 + r.val, hs⟩ : Fin 8192) d := by
    funext a; apply Fin.ext
    match a with
    | ⟨0, _⟩ => show win0_4.index t (0 : Fin 3) * 4 + 1 * b.val = b.val; omega
    | ⟨1, _⟩ => show win0_4.index t (1 : Fin 3) * 512 + 1 * r.val = win0_4.index t (1 : Fin 3) * 512 + r.val; omega
    | ⟨2, _⟩ => show win0_4.index t (2 : Fin 3) * 1024 + 1 * d.val = d.val; omega
  have hemb0 : ∀ k : Fin 1024, ((cfg0.win 0).blk t).view.emb (ix3 b r k)
      = ix3 b (⟨win0_4.index t (1 : Fin 3) * 512 + r.val, hs⟩ : Fin 8192) k := fun k => by
    funext a; apply Fin.ext
    match a with
    | ⟨0, _⟩ => show win0_0.index t (0 : Fin 3) * 4 + 1 * b.val = b.val; omega
    | ⟨1, _⟩ => show win0_0.index t (1 : Fin 3) * 512 + 1 * r.val = win0_4.index t (1 : Fin 3) * 512 + r.val; omega
    | ⟨2, _⟩ => show win0_0.index t (2 : Fin 3) * 1024 + 1 * k.val = k.val; omega
  have hemb1 : ∀ k : Fin 1024, ((cfg0.win 1).blk t).view.emb (ix2 r k)
      = ix2 (⟨win0_4.index t (1 : Fin 3) * 512 + r.val, hs⟩ : Fin 8192) k := fun k => by
    funext a; apply Fin.ext
    match a with
    | ⟨0, _⟩ => show win0_1.index t (0 : Fin 2) * 512 + 1 * r.val = win0_4.index t (1 : Fin 3) * 512 + r.val; omega
    | ⟨1, _⟩ => show win0_1.index t (1 : Fin 2) * 1024 + 1 * k.val = k.val; omega
  have hemb2 : ∀ k : Fin 1024, ((cfg0.win 2).blk t).view.emb (ix1 k) = ix1 k := fun k => by
    funext a; apply Fin.ext
    match a with
    | ⟨0, _⟩ => show win0_2.index t (0 : Fin 1) * 1024 + 1 * k.val = k.val; omega
  have hemb3 : ∀ k : Fin 1024, ((cfg0.win 3).blk t).view.emb (ix1 k) = ix1 k := fun k => by
    funext a; apply Fin.ext
    match a with
    | ⟨0, _⟩ => show win0_3.index t (0 : Fin 1) * 1024 + 1 * k.val = k.val; omega
  -- the loads through the whole-buffer rectangles are the blocks themselves
  have l0 : View.ld (iblk m c 0 t) r0_0 = iblk m c 0 t := View.ld_unit_zero (S := S4x512x1024) hz3 _ _
  have l1 : View.ld (iblk m c 1 t) r0_1 = iblk m c 1 t := View.ld_unit_zero (S := S512x1024) hz2 _ _
  have l2 : View.ld (iblk m c 2 t) r0_2 = iblk m c 2 t := View.ld_unit_zero (S := S1024) hz1 _ _
  have l3 : View.ld (iblk m c 3 t) r0_2 = iblk m c 3 t := View.ld_unit_zero (S := S1024) hz1 _ _
  show out0_4 (iblk m c 0 t) (iblk m c 1 t) (iblk m c 2 t) (iblk m c 3 t) (ix3 b r d)
    = Cert.LN.Gk (V m c main_arg0) (V m c main_arg1) (V m c main_arg2) (V m c main_arg3)
        (((cfg0.win 4).blk t).view.emb (ix3 b r d))
  refine (Value.canon4_eq (View.ld (iblk m c 0 t) r0_0) (View.ld (iblk m c 1 t) r0_1) (View.ld (iblk m c 2 t) r0_2)
    (View.ld (iblk m c 3 t) r0_2) (ix3 b r d)).trans ?_
  rw [l0, l1, l2, l3, hemb4, Cert.LN.Gk_ix3]
  refine (KBlock.block_eq (iblk m c 0 t) (iblk m c 1 t) (iblk m c 2 t) (iblk m c 3 t) b r d).trans ?_
  refine rowK_congr (fun k => ?_) (fun k => ?_) (fun k => ?_) d
  · have h0 : iblk m c 0 t (ix3 b r k)
        = V m c main_arg0 (ix3 b (⟨win0_4.index t (1 : Fin 3) * 512 + r.val, hs⟩ : Fin 8192) k) := by
      show V m c main_arg0 (((cfg0.win 0).blk t).view.emb (ix3 b r k)) = _
      rw [hemb0]
    have h1 : iblk m c 1 t (ix2 r k)
        = V m c main_arg1 (ix2 (⟨win0_4.index t (1 : Fin 3) * 512 + r.val, hs⟩ : Fin 8192) k) := by
      show V m c main_arg1 (((cfg0.win 1).blk t).view.emb (ix2 r k)) = _
      rw [hemb1]
    exact congrArg₂ (fun u v : EReal => u + v) h0 h1
  · show V m c main_arg2 (((cfg0.win 2).blk t).view.emb (ix1 k)) = V m c main_arg2 (ix1 k)
    rw [hemb2]
  · show V m c main_arg3 (((cfg0.win 3).blk t).view.emb (ix1 k)) = V m c main_arg3 (ix1 k)
    rw [hemb3]

/-- An index of the result array is in point `t`'s block iff each coordinate is in the block's range on its axis. -/
theorem mem_blk (t : Fin cfg0.N) (i : S4x8192x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v0).slice (win0_4.rect t)).set ↔ _
  rw [View.set_slice_whole, Rect.mem_set_unit]
  exact Iff.rfl

/-- The sixteen blocks tile the result: position `s` lies in the block of index `s / 512`. -/
theorem cover (i : S4x8192x1024.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  obtain ⟨t, ht⟩ := idx_onto ⟨(i 1).val / 512, by omega⟩
  have q0 : win0_4.index t (0 : Fin 3) = 0 := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The result array after the run. -/
theorem final (c : Dev nD) : (dats m 0 c).arrAt 4 cfg0.N
    = Cert.LN.Gk (V m c main_arg0) (V m c main_arg1) (V m c main_arg2) (V m c main_arg3) :=
  (dats m 0 c).arrAt_eq_of_cover 4 _ (fun t _ => flushed_eq m c t) cover

/-- Every weakly fair execution of the kernel's program terminates with its result array at the one-pass normalisation of
    the argument arrays, the arguments unchanged. -/
theorem run :
    θ_run (defs (F := Ideal)) (onTc (τ := τ) (main (F := Ideal))) ⟨m, fun _ => 0, ρ⟩ (fun r => ∀ c : Dev nD,
      r.2.mem ((c.tc : Thread nD τ).loc main_v0)
          = Cert.LN.Gk (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m c), (h c).2⟩) (Value.run_blocks m ρ)

end Cert.KernelIdeal.KValue

end
-- ==== Proof.lean ====
/- Layer normalisation of `x + pos` over the last axis (length 1024), with gain and shift.
   The kernel computes each row in one pass — the two moments, the mean as `S₁ · 2⁻¹⁰`, the variance as the mean of squares
   minus the squared mean, a product with `rsqrt` — over blocks of 512 positions for all four batch entries; the reference
   gathers the positional rows by the identity index vector and normalises in two passes (mean, squared deviations, a
   quotient by `sqrt`). With finite inputs the two are one function of the arguments (`Cert.LN.Gk_eq_Gr`): the kernel's run
   ends at `Gk`, the reference's at `Gr`, and the precondition makes every entry of `x` and `pos` a real number. -/
import proofs.«153988_g48069273977172_cont_8to1c4_857_8_alg».proof.Defs
import proofs.«153988_g48069273977172_cont_8to1c4_857_8_alg».proof.Proof.Gen.Kernel
import proofs.«153988_g48069273977172_cont_8to1c4_857_8_alg».proof.Proof.Gen.Kernel.Skeleton
import proofs.«153988_g48069273977172_cont_8to1c4_857_8_alg».proof.Proof.Gen.Kernel.Launch
import proofs.«153988_g48069273977172_cont_8to1c4_857_8_alg».proof.Proof.Gen.Kernel.Points
import proofs.«153988_g48069273977172_cont_8to1c4_857_8_alg».proof.Proof.Gen.Kernel.Frame
import proofs.«153988_g48069273977172_cont_8to1c4_857_8_alg».proof.Proof.Gen.KernelIdeal
import proofs.«153988_g48069273977172_cont_8to1c4_857_8_alg».proof.Proof.Gen.KernelIdeal.Skeleton
import proofs.«153988_g48069273977172_cont_8to1c4_857_8_alg».proof.Proof.Gen.KernelIdeal.Launch
import proofs.«153988_g48069273977172_cont_8to1c4_857_8_alg».proof.Proof.Gen.KernelIdeal.Points
import proofs.«153988_g48069273977172_cont_8to1c4_857_8_alg».proof.Proof.Gen.KernelIdeal.Frame
import proofs.«153988_g48069273977172_cont_8to1c4_857_8_alg».proof.Proof.Gen.KernelIdeal.Value
import proofs.«153988_g48069273977172_cont_8to1c4_857_8_alg».proof.Proof.Gen.ReferenceIdeal
import proofs.«153988_g48069273977172_cont_8to1c4_857_8_alg».proof.Proof.Gen.Pre_finite_inputs
import proofs.«153988_g48069273977172_cont_8to1c4_857_8_alg».proof.Proof.Spec
import proofs.«153988_g48069273977172_cont_8to1c4_857_8_alg».proof.Proof.Finite
import proofs.«153988_g48069273977172_cont_8to1c4_857_8_alg».proof.Proof.RefValue
import proofs.«153988_g48069273977172_cont_8to1c4_857_8_alg».proof.Proof.KernelValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end at the one-pass normalisation of the kernel's arguments: the kernel's by its value, the reference's
    because its two-pass result of the agreeing arguments is the same array when `x` and `pos` are finite. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨hx, hp⟩ := Cert.LN.Finite.of_pre _ _ _ _ (hpre c)
  exact (Cert.LN.Gk_eq_Gr _ _ _ _ hx hp).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
